-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x1024 : Shape := ⟨3, ![32, 512, 1024]⟩
abbrev S_ : Shape := ⟨0, ![]⟩

class Facts : Prop where
  bcast_S_S32x512x1024 : S_.BroadcastsInDim S32x512x1024 (![] : Fin 0 → Fin S32x512x1024.rank)
  reducesTo_S32x512x1024_S_d0_1_2 : S32x512x1024.ReducesTo [0, 1, 2] S_
  h_S_ : 0 < S_.numel

variable [Facts]

def fn {F : FTy → Type} [FloatOps F] (main_arg0 : FVec F S32x512x1024 .f32) (main_arg1 : FVec F S32x512x1024 .f32) : IVec S_ 1 :=
  let main_v0 : FVec F S32x512x1024 .f32 := Host.absf main_arg0
  let main_cst : FVec F S_ .f32 := constant S_ .f32 0x7F800000#32
  let main_v1 : FVec F S32x512x1024 .f32 := broadcastInDim S32x512x1024 ![] bcast_S_S32x512x1024 main_cst
  let main_v2 : IVec S32x512x1024 1 := cmpf .olt main_v0 main_v1
  let main_c : IVec S_ 1 := constantI S_ 1 1#1
  let main_v3 : IVec S_ 1 := (fun x v => Host.reduce IntOp.andi x v reducesTo_S32x512x1024_S_d0_1_2 h_S_) main_v2 main_c
  let main_v4 : FVec F S32x512x1024 .f32 := Host.absf main_arg1
  let main_cst_0 : FVec F S_ .f32 := constant S_ .f32 0x7F800000#32
  let main_v5 : FVec F S32x512x1024 .f32 := broadcastInDim S32x512x1024 ![] bcast_S_S32x512x1024 main_cst_0
  let main_v6 : IVec S32x512x1024 1 := cmpf .olt main_v4 main_v5
  let main_c_1 : IVec S_ 1 := constantI S_ 1 1#1
  let main_v7 : IVec S_ 1 := (fun x v => Host.reduce IntOp.andi x v reducesTo_S32x512x1024_S_d0_1_2 h_S_) main_v6 main_c_1
  let main_v8 : IVec S_ 1 := andi main_v3 main_v7
  main_v8
-- ==== Kernel.lean ====
abbrev S32x512x1024 : Shape := ⟨3, ![32, 512, 1024]⟩
abbrev S32x512x512 : Shape := ⟨3, ![32, 512, 512]⟩
abbrev S1x512x1024 : Shape := ⟨3, ![1, 512, 1024]⟩
abbrev S1x512x512 : Shape := ⟨3, ![1, 512, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x512 : Shape := ⟨2, ![1, 512]⟩

abbrev nBuf : Space → Nat
  | .hbm => 3
  | .vmem => 6
  | .smem => 0
  | _ => 0

abbrev bufTy : (tb : Table) → Fin (tcTables nBuf tb) → BufTy
  | .hbm, ⟨0, _⟩ => ⟨S32x512x1024, .f32⟩
  | .hbm, ⟨1, _⟩ => ⟨S32x512x1024, .f32⟩
  | .hbm, ⟨2, _⟩ => ⟨S32x512x512, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x512, .f32⟩
  | .local _ .vmem, ⟨5, _⟩ => ⟨S1x512x512, .f32⟩
  | _, _ => ⟨S32x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  reduces_S512x1024_S512 : S512x1024.Reduces [1] S512
  shapeCasts_S512_S512x1 : S512.ShapeCasts S512x1
  shapeCasts_S512x1_S512 : S512x1.ShapeCasts S512
  shapeCasts_S512_S1x512 : S512.ShapeCasts S1x512
  broadcasts_S512x1_S512x512 : S512x1.Broadcasts S512x512
  broadcasts_S1x512_S512x512 : S1x512.Broadcasts S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S32x512x1024.size a
  hwx0_0 : ∀ i : grid0.Coords, EltTy.bits .f32 = 32 ∨ (Rect.block (s := S32x512x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S32x512x1024.size a
  hwx0_1 : ∀ i : grid0.Coords, EltTy.bits .f32 = 32 ∨ (Rect.block (s := S32x512x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S32x512x512.size a
  hwx0_2 : ∀ i : grid0.Coords, EltTy.bits .f32 = 32 ∨ (Rect.block (s := S32x512x512) S1x512x512.size (cc0_transform_2 i) (hinb0_2 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x512x1024 : Shape := ⟨3, ![32, 512, 1024]⟩
abbrev S32x512x512 : Shape := ⟨3, ![32, 512, 512]⟩
abbrev S_ : Shape := ⟨0, ![]⟩
abbrev S32x512 : Shape := ⟨2, ![32, 512]⟩
abbrev S32x512x1 : Shape := ⟨3, ![32, 512, 1]⟩
abbrev S32x1x512 : Shape := ⟨3, ![32, 1, 512]⟩

abbrev nBuf : Space → Nat
  | .hbm => 26
  | .vmem => 0
  | .smem => 0
  | _ => 0

abbrev bufTy : (tb : Table) → Fin (tcTables nBuf tb) → BufTy
  | .hbm, ⟨0, _⟩ => ⟨S32x512x1024, .f32⟩
  | .hbm, ⟨1, _⟩ => ⟨S32x512x1024, .f32⟩
  | .hbm, ⟨2, _⟩ => ⟨S32x512x512, .f32⟩
  | .hbm, ⟨3, _⟩ => ⟨S32x512x1024, .f32⟩
  | .hbm, ⟨4, _⟩ => ⟨S_, .f32⟩
  | .hbm, ⟨5, _⟩ => ⟨S32x512, .f32⟩
  | .hbm, ⟨6, _⟩ => ⟨S32x512, .f32⟩
  | .hbm, ⟨7, _⟩ => ⟨S32x512x1024, .f32⟩
  | .hbm, ⟨8, _⟩ => ⟨S_, .f32⟩
  | .hbm, ⟨9, _⟩ => ⟨S32x512, .f32⟩
  | .hbm, ⟨10, _⟩ => ⟨S32x512, .f32⟩
  | .hbm, ⟨11, _⟩ => ⟨S32x512x1, .f32⟩
  | .hbm, ⟨12, _⟩ => ⟨S32x1x512, .f32⟩
  | .hbm, ⟨13, _⟩ => ⟨S32x512x512, .f32⟩
  | .hbm, ⟨14, _⟩ => ⟨S32x512x512, .f32⟩
  | .hbm, ⟨15, _⟩ => ⟨S32x512x512, .f32⟩
  | .hbm, ⟨16, _⟩ => ⟨S_, .f32⟩
  | .hbm, ⟨17, _⟩ => ⟨S32x512x512, .f32⟩
  | .hbm, ⟨18, _⟩ => ⟨S32x512x512, .f32⟩
  | .hbm, ⟨19, _⟩ => ⟨S32x512x512, .f32⟩
  | .hbm, ⟨20, _⟩ => ⟨S_, .f32⟩
  | .hbm, ⟨21, _⟩ => ⟨S32x512x512, .f32⟩
  | .hbm, ⟨22, _⟩ => ⟨S32x512x512, .f32⟩
  | .hbm, ⟨23, _⟩ => ⟨S_, .f32⟩
  | .hbm, ⟨24, _⟩ => ⟨S32x512x512, .f32⟩
  | .hbm, ⟨25, _⟩ => ⟨S32x512x512, .f32⟩
  | _, _ => ⟨S32x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_v1 : Ref sig .tc := ⟨.hbm, 6, rfl⟩
abbrev main_call1_v0 : Ref sig .tc := ⟨.hbm, 7, rfl⟩
abbrev main_call1_cst : Ref sig .tc := ⟨.hbm, 8, rfl⟩
abbrev main_call1_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩

abbrev nD : Nat := 1
abbrev τ : Topo := Topo.v7x

variable {F : FTy → Type} [FloatOps F]

class Facts₀ : Prop where
  reducesTo_S32x512x1024_S32x512_d2 : S32x512x1024.ReducesTo [2] S32x512
  h_S_ : 0 < S_.numel
  bcast_S32x512_S32x512x1_0_1 : S32x512.BroadcastsInDim S32x512x1 (![0, 1] : Fin 2 → Fin S32x512x1.rank)
  bcast_S32x512_S32x1x512_0_2 : S32x512.BroadcastsInDim S32x1x512 (![0, 2] : Fin 2 → Fin S32x1x512.rank)
  bcast_S32x512x1_S32x512x512_0_1_2 : S32x512x1.BroadcastsInDim S32x512x512 (![0, 1, 2] : Fin 3 → Fin S32x512x512.rank)
  bcast_S32x1x512_S32x512x512_0_1_2 : S32x1x512.BroadcastsInDim S32x512x512 (![0, 1, 2] : Fin 3 → Fin S32x512x512.rank)
  bcast_S_S32x512x512 : S_.BroadcastsInDim S32x512x512 (![] : Fin 0 → Fin S32x512x512.rank)
  dot_S32x512x1024_S32x512x1024_S32x512x512_2_2_1_1_0_0_wf : DotDims.WF S32x512x1024 S32x512x1024 S32x512x512 [2] [2] [1] [1] [0] [0]

variable [Facts₀]

def dot_S32x512x1024_S32x512x1024_S32x512x512_2_2_1_1_0_0 : DotDims S32x512x1024 S32x512x1024 S32x512x512 where
  lhsContracting := [2]
  rhsContracting := [2]
  lhsNonContracting := [1]
  rhsNonContracting := [1]
  lhsBatch := [0]
  rhsBatch := [0]
  wf := dot_S32x512x1024_S32x512x1024_S32x512x512_2_2_1_1_0_0_wf

class Facts : Prop extends Facts₀ where

variable [Facts]
-- ==== Proof.Spec.lean ====
/-
  The pairwise cosine similarity, remapped to [0, 1], as one function of the two arrays of rows.

  For supports x and targets y, both [32, 512, 1024] (batch, row, feature), entry (b, t, s) of the result is

      ( <y_bt , x_bs> / max(|y_bt| · |x_bs| , ε) + 1 ) · 1/2

  where <· , ·> is the inner product over the 1024 features, |·| the Euclidean length (the square root of the sum of
  squares), and ε, 1 and 1/2 are the three single-precision words both programs spell. Everything is over the extended
  reals with the exact operations; no algebraic law is needed to join the two programs, only the reading of each of their
  sums as the sum over the feature coordinate.
-/
import Idealize.ShloMosaic.PureOps.Ideal
import Idealize.ShloMosaic.PureOps.Ideal.Laws
import Idealize.ShloMosaic.Lib.ValueIdx

noncomputable section

namespace Cert.PairCosine

open Idealize.ShloMosaic Idealize.ShloMosaic.ValueIdx

/-- The arrays of rows: 32 batches of 512 rows of 1024 features. -/
abbrev Rows : Shape := ⟨3, ![32, 512, 1024]⟩
/-- The array of similarities: per batch, target row against support row. -/
abbrev Sims : Shape := ⟨3, ![32, 512, 512]⟩

/-- The inner product of row t of y with row s of x, in batch b. -/
def inner (y x : FVec Ideal Rows .f32) (b : Fin 32) (t s : Fin 512) : EReal :=
  ∑ k : Fin 1024, y (ix3 b t k) * x (ix3 b s k)

/-- The Euclidean length of row r of x in batch b. -/
def len (x : FVec Ideal Rows .f32) (b : Fin 32) (r : Fin 512) : EReal :=
  Ideal.sqrt (∑ k : Fin 1024, x (ix3 b r k) * x (ix3 b r k))

/-- The floor under the product of lengths, the shift and the scale: the words 1e-10, 1.0 and 0.5. -/
def floorWord : EReal := Ideal.ofBits .f32 0x2EDBE6FF#32
def oneWord : EReal := Ideal.ofBits .f32 0x3F800000#32
def halfWord : EReal := Ideal.ofBits .f32 0x3F000000#32

/-- The remapped cosine of two rows from their inner product and lengths. -/
def remap (ip lt ls : EReal) : EReal := (Ideal.div ip (max (lt * ls) floorWord) + oneWord) * halfWord

/-- The whole result: entry (b, t, s) from supports x and targets y. -/
def sim (x y : FVec Ideal Rows .f32) : FVec Ideal Sims .f32 := fun i =>
  remap (inner y x (i 0) (i 1) (i 2)) (len y (i 0) (i 1)) (len x (i 0) (i 2))

theorem sim_apply (x y : FVec Ideal Rows .f32) (b : Fin 32) (t s : Fin 512) :
    sim x y (ix3 b t s) = remap (inner y x b t s) (len y b t) (len x b s) := rfl

end Cert.PairCosine

end
-- ==== Proof.LibKeepdims.lean ====
/-
  A vector kept as a one-column matrix, read at an index.

  Summing a matrix [a, k] along its rows "with the axis kept" leaves a column [a, 1]. The three lemmas here read, at
  indices written by coordinates, the cast of a vector [a] to such a column, the cast of the column back to the vector,
  and the column spread over b columns: each is the operand at the same row.
-/
import Idealize.ShloMosaic.Lib.Pipeline.Value
import Idealize.ShloMosaic.Lib.ValueIdx

namespace Cert.LibKeepdims

open Idealize.ShloMosaic Idealize.ShloMosaic.ValueIdx

variable {α : Type}

/-- A vector [a] cast to a column [a, 1] reads, at (i, u), the vector at i: both sit at row-major position i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] cast to a vector [a] reads, at i, the column at (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column [a, 1] broadcast to [a, b] reads, at (p, c), the column at (p, 0): the row is kept, the unit axis pinned. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KerPay.lean ====
/-
  What the kernel body stores, read at an index.

  At one grid point the body holds a block of supports x and a block of targets y, each [1, 512, 1024]. It drops the
  unit axis, contracts the two matrices over the feature axis (axis 1 of BOTH: targets times supports-transposed, with no
  transpose made), takes each row's sum of squares and its square root, lays the target lengths down a column and the
  support lengths along a row, and divides, shifts and scales pointwise. Entry (t, s) of what it stores is therefore the
  remapped cosine of target row t and support row s of the block. The change of the operands to half width before the
  product is the identity on the extended reals.
-/
import proofs.«120426_j38233798869505_1_alg».proof.Proof.Gen.KernelIdeal.Skeleton
import proofs.«120426_j38233798869505_1_alg».proof.Proof.Spec
import proofs.«120426_j38233798869505_1_alg».proof.Proof.LibKeepdims
import Idealize.ShloMosaic.Lib.ValueLayout
import Idealize.ShloMosaic.Lib.Pipeline.Value
import Idealize.ShloMosaic.PureOps.Ideal.Laws

noncomputable section

namespace Cert.PairCosine.Ker

open Cert.KernelIdeal Cert.KernelIdeal.Gen Idealize.ShloMosaic Idealize.ShloMosaic.ValueIdx Cert.LibKeepdims

/-! ## The product that contracts axis 1 of both operands -/

/-- Output row is the left operand's row. -/
theorem lhs_axis0 (j : S512x512.Idx) (q : dot_S512x1024_S512x1024_S512x512_1_1_0_0_n_n.contr.Idx) :
    (dot_S512x1024_S512x1024_S512x512_1_1_0_0_n_n.lhsIdx j q 0).val = (j 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
/-- The left operand's column is the contraction coordinate. -/
theorem lhs_axis1 (j : S512x512.Idx) (q : dot_S512x1024_S512x1024_S512x512_1_1_0_0_n_n.contr.Idx) :
    (dot_S512x1024_S512x1024_S512x512_1_1_0_0_n_n.lhsIdx j q 1).val = (q ⟨0, by decide⟩).val :=
  dot_S512x1024_S512x1024_S512x512_1_1_0_0_n_n.lhsIdx_val_of_single rfl j q
/-- Output column is the right operand's ROW. -/
theorem rhs_axis0 (j : S512x512.Idx) (q : dot_S512x1024_S512x1024_S512x512_1_1_0_0_n_n.contr.Idx) :
    (dot_S512x1024_S512x1024_S512x512_1_1_0_0_n_n.rhsIdx j q 0).val = (j 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
/-- The right operand's column is the contraction coordinate too. -/
theorem rhs_axis1 (j : S512x512.Idx) (q : dot_S512x1024_S512x1024_S512x512_1_1_0_0_n_n.contr.Idx) :
    (dot_S512x1024_S512x1024_S512x512_1_1_0_0_n_n.rhsIdx j q 1).val = (q ⟨0, by decide⟩).val :=
  dot_S512x1024_S512x1024_S512x512_1_1_0_0_n_n.rhsIdx_val_of_single rfl j q

/-- Into the zero accumulator the product at (t, s) is the inner product of row t of the left operand with row s of the right. -/
theorem rowsProduct_apply (l r : FVec Ideal S512x1024 .bf16) (t s : Fin 512) :
    matmul dot_S512x1024_S512x1024_S512x512_1_1_0_0_n_n none l r (constant (F := Ideal) S512x512 .f32 0x00000000#32) (ix2 t s)
      = ∑ k : Fin 1024, l (ix2 t k) * r (ix2 s k) := by
  simp only [matmul]
  rw [Ideal.matmul_constant_zero_apply, ← Equiv.sum_comp (contrEquiv1 dot_S512x1024_S512x1024_S512x512_1_1_0_0_n_n 1024 rfl rfl).symm]
  refine Finset.sum_congr rfl fun k _ => ?_
  have hk := contrEquiv1_symm_val dot_S512x1024_S512x1024_S512x512_1_1_0_0_n_n 1024 rfl rfl k
  have el : dot_S512x1024_S512x1024_S512x512_1_1_0_0_n_n.lhsIdx (ix2 t s) ((contrEquiv1 dot_S512x1024_S512x1024_S512x512_1_1_0_0_n_n 1024 rfl rfl).symm k) = ix2 t k := funext fun a => Fin.ext (by
    match a with
    | ⟨0, _⟩ => exact lhs_axis0 _ _
    | ⟨1, _⟩ => exact (lhs_axis1 _ _).trans hk)
  have er : dot_S512x1024_S512x1024_S512x512_1_1_0_0_n_n.rhsIdx (ix2 t s) ((contrEquiv1 dot_S512x1024_S512x1024_S512x512_1_1_0_0_n_n 1024 rfl rfl).symm k) = ix2 s k := funext fun a => Fin.ext (by
    match a with
    | ⟨0, _⟩ => exact rhs_axis0 _ _
    | ⟨1, _⟩ => exact (rhs_axis1 _ _).trans hk)
  rw [el, er]

/-! ## A row's sum, and the pointwise square root -/

/-- The sum along the features of a [512, 1024] matrix from the zero word, at row r: the sum over the feature coordinate.
    (The two side conditions, that the format is a float format and that the starting word is the sum's neutral one, are
    taken as the body states them.) -/
theorem rowSum_apply (v : FVec Ideal S512x1024 .f32) (hφ : FTy.f32 = FTy.f32 ∨ FTy.f32 = FTy.bf16)
    (hacc : (0x00000000#32 : BitVec 32) = 0x00000000#32) (r : Fin 512) :
    multiReduction .add [1] S512 v 0x00000000#32 reduces_S512x1024_S512 hφ hacc (ix1 r) = ∑ k : Fin 1024, v (ix2 r k) := by
  refine (Ideal.multiReduction_add_single v 0x00000000#32 reduces_S512x1024_S512 hφ hacc (ix1 r)).trans ?_
  exact Finset.sum_congr rfl fun k _ => congrArg v (funext fun a => Fin.ext (by match a with | ⟨0, _⟩ => rfl | ⟨1, _⟩ => rfl))

theorem sqrt_apply {s : Shape} (v : FVec Ideal s .f32) (i : s.Idx) : sqrt v i = Ideal.sqrt (v i) := rfl

/-! ## The stored block -/

/-- Entry (t, s) of the stored block, from the supports' block x0 and the targets' block x1. -/
theorem stored_apply (x0 x1 : Vec Ideal S1x512x1024 .f32) (u : Fin 1) (t s : Fin 512) :
    k0_pay1 (F := Ideal) x0 x1 (ix3 u t s)
      = Cert.PairCosine.remap (∑ k : Fin 1024, x1 (ix3 (0 : Fin 1) t k) * x0 (ix3 (0 : Fin 1) s k))
          (Ideal.sqrt (∑ k : Fin 1024, x1 (ix3 (0 : Fin 1) t k) * x1 (ix3 (0 : Fin 1) t k)))
          (Ideal.sqrt (∑ k : Fin 1024, x0 (ix3 (0 : Fin 1) s k) * x0 (ix3 (0 : Fin 1) s k))) := by
  unfold k0_pay1
  simp only [shapeCast_ab_1ab_apply, mulf_apply, addf_apply, divf_apply, maximumf_apply, broadcast_apply,
    rowsProduct_apply, broadcastTo_a1_ab_apply, broadcastTo_1b_ab_apply, shapeCast_a_1a_apply, shapeCast_a1_a_apply,
    shapeCast_a_a1_apply, sqrt_apply, shapeCast_1ab_ab_apply, truncf_apply]
  rw [rowSum_apply, rowSum_apply]
  simp only [mulf_apply, shapeCast_1ab_ab_apply]
  rfl

end Cert.PairCosine.Ker

end
-- ==== Proof.KerArr.lean ====
/-
  From what each grid point stores to the whole result array.

  The grid has one point per batch. Point t stages batch t of the supports and batch t of the targets — the blocks are
  whole along the row and feature axes — and writes back batch t of the result. So each input block, read at
  (0, r, k), is its array at (t, r, k); what point t writes back is block t of the similarity of the two argument
  arrays; and the 32 blocks tile the result array, the point that covers an index being its batch coordinate.
-/
import proofs.«120426_j38233798869505_1_alg».proof.Proof.Gen.KernelIdeal.Value
import proofs.«120426_j38233798869505_1_alg».proof.Proof.KerPay

noncomputable section

namespace Cert.PairCosine.Ker

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl

/-- Every window's block index at point t is (t, 0, 0): decided over the 32 points. -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The batch a grid point works on. -/
def batchOf (t : Fin cfg0.N) : Fin 32 := ⟨t.val, lt_of_lt_of_eq t.isLt N_0⟩

/-- The two input blocks at a point and the two argument arrays, at their literal types. -/
abbrev supBlock (c : Dev nD) (t : Fin cfg0.N) : Vec Ideal S1x512x1024 .f32 := iblk m c 0 t
abbrev tgtBlock (c : Dev nD) (t : Fin cfg0.N) : Vec Ideal S1x512x1024 .f32 := iblk m c 1 t
abbrev supArr (c : Dev nD) : FVec Ideal Cert.PairCosine.Rows .f32 := V m c main_arg0
abbrev tgtArr (c : Dev nD) : FVec Ideal Cert.PairCosine.Rows .f32 := V m c main_arg1

/-- The supports' block at point t is batch t of the supports. -/
theorem supBlock_apply (c : Dev nD) (t : Fin cfg0.N) (u : Fin 1) (r : Fin 512) (k : Fin 1024) :
    supBlock m c t (ix3 u r k) = supArr m c (ix3 (batchOf t) r k) := by
  obtain ⟨e0, e1, e2, -⟩ := index_facts t
  have hu : u.val = 0 := by omega
  show V m c main_arg0 (((cfg0.win 0).blk t).view.emb (ix3 u r k)) = V m c main_arg0 (ix3 (batchOf t) r k)
  refine congrArg _ (funext fun a => Fin.ext ?_)
  match a with
  | ⟨0, _⟩ => show win0_0.index t (0 : Fin 3) * 1 + 1 * u.val = t.val; omega
  | ⟨1, _⟩ => show win0_0.index t (1 : Fin 3) * 512 + 1 * r.val = r.val; omega
  | ⟨2, _⟩ => show win0_0.index t (2 : Fin 3) * 1024 + 1 * k.val = k.val; omega

/-- The targets' block at point t is batch t of the targets. -/
theorem tgtBlock_apply (c : Dev nD) (t : Fin cfg0.N) (u : Fin 1) (r : Fin 512) (k : Fin 1024) :
    tgtBlock m c t (ix3 u r k) = tgtArr m c (ix3 (batchOf t) r k) := by
  obtain ⟨-, -, -, e0, e1, e2, -⟩ := index_facts t
  have hu : u.val = 0 := by omega
  show V m c main_arg1 (((cfg0.win 1).blk t).view.emb (ix3 u r k)) = V m c main_arg1 (ix3 (batchOf t) r k)
  refine congrArg _ (funext fun a => Fin.ext ?_)
  match a with
  | ⟨0, _⟩ => show win0_1.index t (0 : Fin 3) * 1 + 1 * u.val = t.val; omega
  | ⟨1, _⟩ => show win0_1.index t (1 : Fin 3) * 512 + 1 * r.val = r.val; omega
  | ⟨2, _⟩ => show win0_1.index t (2 : Fin 3) * 1024 + 1 * k.val = k.val; omega

/-- Entry (u, p, q) of the result's block at point t sits at (t, p, q) of the result array. -/
theorem outBlock_emb (t : Fin cfg0.N) (u : Fin 1) (p q : Fin 512) :
    (((cfg0.win 2).blk t).view.emb (ix3 u p q) : S32x512x512.Idx) = ix3 (batchOf t) p q := by
  obtain ⟨-, -, -, -, -, -, e0, e1, e2⟩ := index_facts t
  have hu : u.val = 0 := by omega
  refine funext fun a => Fin.ext ?_
  match a with
  | ⟨0, _⟩ => show win0_2.index t (0 : Fin 3) * 1 + 1 * u.val = t.val; omega
  | ⟨1, _⟩ => show win0_2.index t (1 : Fin 3) * 512 + 1 * p.val = p.val; omega
  | ⟨2, _⟩ => show win0_2.index t (2 : Fin 3) * 512 + 1 * q.val = q.val; omega

/-- What point t writes back is block t of the similarity of the argument arrays. -/
theorem written_eq (c : Dev nD) (t : Fin cfg0.N) :
    (dats m 0 c).flushed 2 t
      = ((cfg0.win 2).blk t).view.read (Elt Ideal) (Cert.PairCosine.sim (supArr m c) (tgtArr m c)) := by
  rw [Cert.KernelIdeal.Value.flushed2]
  unfold out0_2
  rw [View.canon_unit_zero zeros3]
  simp only [View.ld_unit_zero (S := S1x512x1024) zeros3]
  funext j
  obtain ⟨u, p, q, rfl⟩ : ∃ (u : Fin 1) (p q : Fin 512), j = ix3 u p q := ⟨j 0, j 1, j 2, eq_ix3 j⟩
  show k0_pay1 (F := Ideal) (supBlock m c t) (tgtBlock m c t) (ix3 u p q)
    = Cert.PairCosine.sim (supArr m c) (tgtArr m c) (((cfg0.win 2).blk t).view.emb (ix3 u p q))
  refine (stored_apply (supBlock m c t) (tgtBlock m c t) u p q).trans ?_
  refine Eq.trans ?_ (congrArg (Cert.PairCosine.sim (supArr m c) (tgtArr m c)) (outBlock_emb t u p q)).symm
  rw [Cert.PairCosine.sim_apply]
  unfold Cert.PairCosine.inner Cert.PairCosine.len
  simp only [supBlock_apply, tgtBlock_apply]

/-- An index of the result array is in point t's block iff each coordinate is in the block's range on its axis. -/
theorem mem_block (t : Fin cfg0.N) (i : S32x512x512.Idx) :
    i ∈ ((cfg0.win 2).blk t).view.set ↔ ∀ a : Fin 3, win0_2.index t a * S1x512x512.size a ≤ (i a).val ∧ (i a).val < win0_2.index t a * S1x512x512.size a + S1x512x512.size a := by
  show i ∈ ((View.whole main_v0).slice (win0_2.rect t)).set ↔ _
  rw [View.set_slice_whole, Rect.mem_set_unit]
  exact Iff.rfl

/-- Every index of the result array is in the block of the point its batch coordinate names. -/
theorem covered (i : S32x512x512.Idx) :
    ∃ t : Fin cfg0.N, (cfg0.win 2).flush t = true ∧ i ∈ ((cfg0.win 2).blk t).view.set := by
  have h0 : (i 0).val < 32 := (i 0).isLt
  have h1 : (i 1).val < 512 := (i 1).isLt
  have h2 : (i 2).val < 512 := (i 2).isLt
  have hN : (i 0).val < cfg0.N := lt_of_lt_of_eq h0 N_0.symm
  obtain ⟨-, -, -, -, -, -, e0, e1, e2⟩ := index_facts ⟨(i 0).val, hN⟩
  refine ⟨⟨(i 0).val, hN⟩, flush0_2 _, ?_⟩
  rw [mem_block]
  intro a
  match a with
  | ⟨0, _⟩ =>
    show win0_2.index ⟨(i 0).val, hN⟩ (0 : Fin 3) * 1 ≤ (i 0).val ∧ (i 0).val < win0_2.index ⟨(i 0).val, hN⟩ (0 : Fin 3) * 1 + 1
    have e0' : win0_2.index ⟨(i 0).val, hN⟩ (0 : Fin 3) = (i 0).val := e0
    omega
  | ⟨1, _⟩ =>
    show win0_2.index ⟨(i 0).val, hN⟩ (1 : Fin 3) * 512 ≤ (i 1).val ∧ (i 1).val < win0_2.index ⟨(i 0).val, hN⟩ (1 : Fin 3) * 512 + 512
    omega
  | ⟨2, _⟩ =>
    show win0_2.index ⟨(i 0).val, hN⟩ (2 : Fin 3) * 512 ≤ (i 2).val ∧ (i 2).val < win0_2.index ⟨(i 0).val, hN⟩ (2 : Fin 3) * 512 + 512
    omega

/-- The result array after the run is the similarity of the argument arrays as launched. -/
theorem final (c : Dev nD) :
    (dats m 0 c).arrAt 2 cfg0.N
      = Cert.PairCosine.sim (m ((c : Thread nD τ).loc main_arg0)) (m ((c : Thread nD τ).loc main_arg1)) :=
  (dats m 0 c).arrAt_eq_of_cover 2 (Cert.PairCosine.sim (supArr m c) (tgtArr m c)) (fun t _ => written_eq m c t) covered

/-- The kernel's run: the result array ends at the similarity, the arguments unchanged. -/
theorem run : θ_run defs (onTc (τ := τ) (main (F := Ideal))) ⟨m, fun _ => 0, ρ⟩ fun r => ∀ c : Dev nD,
      r.2.mem ((c : Thread nD τ).loc main_v0)
        = Cert.PairCosine.sim (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.PairCosine.Ker

end
-- ==== Proof.RefSim.lean ====
/-
  The reference's result is the similarity function of the specification.

  The reference computes the inner products by one batched contraction over the feature axis, each row's length as the
  square root of zero plus the sum of the row's squares, spreads the target lengths along the support axis and the
  support lengths along the target axis, and then divides, shifts and scales pointwise. Read at an index (b, t, s),
  every operand index it composes is a row of batch b at a feature k: row t of the targets, row s of the supports.
-/
import proofs.«120426_j38233798869505_1_alg».proof.Proof.Gen.ReferenceIdeal.Read
import proofs.«120426_j38233798869505_1_alg».proof.Proof.Spec

noncomputable section

namespace Cert.PairCosine.Ref

open Cert.ReferenceIdeal Cert.ReferenceIdeal.Gen Cert.ReferenceIdeal.Read Idealize.ShloMosaic Idealize.ShloMosaic.ValueIdx

/-- The contraction's left operand (the targets) is read at row (b, t), feature k. -/
theorem left_eq (i : S32x512x512.Idx) (k : Fin 1024) : lidx_main_v0 i k = ix3 (i 0) (i 1) k :=
  funext fun a => Fin.ext (by match a with | ⟨0, _⟩ => rfl | ⟨1, _⟩ => rfl | ⟨2, _⟩ => rfl)

/-- Its right operand (the supports) at row (b, s), feature k. -/
theorem right_eq (i : S32x512x512.Idx) (k : Fin 1024) : ridx_main_v0 i k = ix3 (i 0) (i 2) k :=
  funext fun a => Fin.ext (by match a with | ⟨0, _⟩ => rfl | ⟨1, _⟩ => rfl | ⟨2, _⟩ => rfl)

/-- The target length spread to (b, t, s) sums the squares of row (b, t). -/
theorem targetRow_eq (i : S32x512x512.Idx) (k : Fin 1024) :
    idx_main_call0_v1 (idx_main_v3 (idx_main_v5 i)) k = ix3 (i 0) (i 1) k :=
  funext fun a => Fin.ext (by match a with | ⟨0, _⟩ => rfl | ⟨1, _⟩ => rfl | ⟨2, _⟩ => rfl)

/-- The support length spread to (b, t, s) sums the squares of row (b, s). -/
theorem supportRow_eq (i : S32x512x512.Idx) (k : Fin 1024) :
    idx_main_call1_v1 (idx_main_v4 (idx_main_v6 i)) k = ix3 (i 0) (i 2) k :=
  funext fun a => Fin.ext (by match a with | ⟨0, _⟩ => rfl | ⟨1, _⟩ => rfl | ⟨2, _⟩ => rfl)

/-- The reference's last stage, as a function of the supports x0 and the targets x1, is the similarity. -/
theorem result_eq (x0 x1 : (⟨S32x512x1024, .f32⟩ : BufTy).Contents (Elt Ideal)) :
    val_main_v14 (F := Ideal) x0 x1 = Cert.PairCosine.sim x0 x1 := by
  funext i
  rw [val_main_v14_apply, val_main_v12_apply, val_main_v10_apply, val_main_v0_apply, val_main_v9_apply, val_main_v7_apply,
    val_main_v5_apply, val_main_v3_apply, val_main_v1_apply, val_main_call0_v1_apply,
    val_main_v6_apply, val_main_v4_apply, val_main_v2_apply, val_main_call1_v1_apply,
    val_main_v8_apply, val_main_cst_apply, val_main_v11_apply, val_main_cst_0_apply, val_main_v13_apply, val_main_cst_1_apply]
  simp only [val_main_call0_v0_apply, val_main_call1_v0_apply, val_main_call0_cst_apply, val_main_call1_cst_apply,
    Ideal.mulf_def, Ideal.addf_def, Ideal.hostDivf_def, Ideal.maximumf_def, Ideal.hostUnary_sqrt_def, Ideal.ofBits_def,
    Ideal.ofBits_zero_f32, zero_add, left_eq, right_eq, targetRow_eq, supportRow_eq]
  rfl

end Cert.PairCosine.Ref

end
-- ==== Proof.lean ====
/-
  The pairwise cosine similarity kernel against its reference, over the extended reals.

  Both programs compute, for supports x and targets y (32 batches of 512 rows of 1024 features), at (b, t, s),

      ( <y_bt , x_bs> / max(|y_bt| · |x_bs| , ε) + 1 ) · 1/2

  with the same three single-precision words for ε, 1 and 1/2. The kernel does it batch by batch: one grid point per
  batch, one matrix product that contracts the feature axis of both blocks, each row's length from its sum of squares,
  the target lengths laid down a column and the support lengths along a row. The reference does it for all batches at
  once: one batched contraction, the lengths spread along the missing axis. At the exact operations the half-width
  operands of the kernel's product are the operands themselves, its product into zero and the reference's contraction
  are the same finite sum over the features, and so are the two sums of squares (the reference's starting from the
  zero word); no algebraic law beyond that reading is needed, and the inputs' finiteness is never used.

  The three frames are the generated ones (the reference's is its generated run with the result dropped); the ideal
  pass rewrote nothing, so there is nothing to preserve; the value claim sets the kernel's result array
  (Proof/KerArr.lean, over Proof/KerPay.lean) beside the reference's last stage (Proof/RefSim.lean), both equal to the
  one function of Proof/Spec.lean.
-/
import proofs.«120426_j38233798869505_1_alg».proof.Defs
import proofs.«120426_j38233798869505_1_alg».proof.Proof.Gen.Kernel
import proofs.«120426_j38233798869505_1_alg».proof.Proof.Gen.Kernel.Skeleton
import proofs.«120426_j38233798869505_1_alg».proof.Proof.Gen.Kernel.Launch
import proofs.«120426_j38233798869505_1_alg».proof.Proof.Gen.Kernel.Points
import proofs.«120426_j38233798869505_1_alg».proof.Proof.Gen.Kernel.Frame
import proofs.«120426_j38233798869505_1_alg».proof.Proof.Gen.KernelIdeal
import proofs.«120426_j38233798869505_1_alg».proof.Proof.Gen.KernelIdeal.Skeleton
import proofs.«120426_j38233798869505_1_alg».proof.Proof.Gen.KernelIdeal.Launch
import proofs.«120426_j38233798869505_1_alg».proof.Proof.Gen.KernelIdeal.Points
import proofs.«120426_j38233798869505_1_alg».proof.Proof.Gen.KernelIdeal.Frame
import proofs.«120426_j38233798869505_1_alg».proof.Proof.Gen.ReferenceIdeal
import proofs.«120426_j38233798869505_1_alg».proof.Proof.Gen.Pre_finite_inputs
import proofs.«120426_j38233798869505_1_alg».proof.Proof.Gen.KernelIdeal.Value
import proofs.«120426_j38233798869505_1_alg».proof.Proof.Gen.ReferenceIdeal.Run
import proofs.«120426_j38233798869505_1_alg».proof.Proof.Gen.ReferenceIdeal.Read
import proofs.«120426_j38233798869505_1_alg».proof.Proof.KerArr
import proofs.«120426_j38233798869505_1_alg».proof.Proof.RefSim
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read at the exact operations. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's last stage are the similarity of the
    same two arrays. -/
theorem algebraic : Cert.algebraic_KernelIdeal_ReferenceIdeal := by
  intro m ρ m' ρ' _ hagree
  refine ⟨_, Cert.PairCosine.Ker.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.PairCosine.Ref.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
